-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 78
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S_, .f32⟩
  | .hbm, ⟨43, _⟩ => ⟨S100000x128, .i1⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .i1⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S_, .f32⟩
  | .hbm, ⟨73, _⟩ => ⟨S100000x128, .i1⟩
  | .hbm, ⟨74, _⟩ => ⟨S100000x128, .f32⟩
  | .hbm, ⟨75, _⟩ => ⟨S100000x128, .f32⟩
  | .hbm, ⟨76, _⟩ => ⟨S1x64, .f32⟩
  | .hbm, ⟨77, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S_, .f32⟩
  | .hbm, ⟨43, _⟩ => ⟨S100000x128, .i1⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .i1⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S_, .f32⟩
  | .hbm, ⟨86, _⟩ => ⟨S100000x128, .i1⟩
  | .hbm, ⟨87, _⟩ => ⟨S100000x128, .f32⟩
  | .hbm, ⟨88, _⟩ => ⟨S100000x128, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LayerSpec.lean ====
/-
  One dense layer of the two-layer graph network, entry by entry.

  A layer takes the mean of the neighbours' features `mean` (one row per node), the nodes' own features `x`,
  two weight matrices and a bias row, and produces, at node `r` and output column `q`,

      (Σ_k mean[r,k] · W_l[k,q])  +  (Σ_k x[r,k] · W_r[k,q])  +  b[q]

  over the extended reals: two inner products over the 128 input features and the bias of the column. The first
  layer clamps the result below at the value of the zero word (a rectifier); the second does not. The kernel adds
  the bias last and the reference adds it between the two products: the only law between the two spellings is
  that addition of extended reals is commutative and associative (`add_right_comm`), which holds at the
  infinities too, so nothing here asks the inputs to be finite.

  A row block of the result depends only on the same row block of `mean` and `x` (`affineAt_rows`): that is
  what lets a kernel compute the layer tile by tile over the node axis.
-/
import Idealize.ShloMosaic.PureOps.Ideal
import Idealize.ShloMosaic.Lib.ValueIdx

noncomputable section

open scoped BigOperators

namespace Cert.SageLayer

open Idealize.ShloMosaic Idealize.ShloMosaic.ValueIdx

/-- Entry `(r, q)` of `mean · W_l + x · W_r + b`, the bias added last: the two inner products over the 128 features
    of row `r` against column `q`, then the bias of column `q` (the bias is a one-row matrix). -/
def affineAt {N D : Nat} (mean x : (⟨2, ![N, 128]⟩ : Shape).Idx → EReal) (wl wr : (⟨2, ![128, D]⟩ : Shape).Idx → EReal)
    (b : (⟨2, ![1, D]⟩ : Shape).Idx → EReal) (r : Fin N) (q : Fin D) : EReal :=
  (∑ k : Fin 128, mean (ix2 r k) * wl (ix2 k q)) + (∑ k : Fin 128, x (ix2 r k) * wr (ix2 k q)) + b (ix2 (0 : Fin 1) q)

/-- The same entry with the bias added between the two products, as the reference spells it. -/
theorem affineAt_bias_between {N D : Nat} (mean x : (⟨2, ![N, 128]⟩ : Shape).Idx → EReal) (wl wr : (⟨2, ![128, D]⟩ : Shape).Idx → EReal)
    (b : (⟨2, ![1, D]⟩ : Shape).Idx → EReal) (r : Fin N) (q : Fin D) :
    (∑ k : Fin 128, mean (ix2 r k) * wl (ix2 k q)) + b (ix2 (0 : Fin 1) q) + (∑ k : Fin 128, x (ix2 r k) * wr (ix2 k q))
      = affineAt mean x wl wr b r q := by
  unfold affineAt
  exact add_right_comm _ _ _

/-- Row `r` of the layer reads only row `r` of `mean` and of `x`: if a block `(mean', x')` of `M` rows holds
    rows `o, o+1, …` of `(mean, x)`, its entry `(p, q)` is entry `(o + p, q)` of the whole. -/
theorem affineAt_rows {N M D : Nat} (mean x : (⟨2, ![N, 128]⟩ : Shape).Idx → EReal) (mean' x' : (⟨2, ![M, 128]⟩ : Shape).Idx → EReal)
    (wl wr : (⟨2, ![128, D]⟩ : Shape).Idx → EReal) (b : (⟨2, ![1, D]⟩ : Shape).Idx → EReal) (p : Fin M) (r : Fin N) (q : Fin D)
    (hm : ∀ k : Fin 128, mean' (ix2 p k) = mean (ix2 r k)) (hx : ∀ k : Fin 128, x' (ix2 p k) = x (ix2 r k)) :
    affineAt mean' x' wl wr b p q = affineAt mean x wl wr b r q := by
  unfold affineAt
  have e1 : (∑ k : Fin 128, mean' (ix2 p k) * wl (ix2 k q)) = ∑ k : Fin 128, mean (ix2 r k) * wl (ix2 k q) :=
    Finset.sum_congr rfl fun k _ => by rw [hm k]
  have e2 : (∑ k : Fin 128, x' (ix2 p k) * wr (ix2 k q)) = ∑ k : Fin 128, x (ix2 r k) * wr (ix2 k q) :=
    Finset.sum_congr rfl fun k _ => by rw [hx k]
  rw [e1, e2]

/-- The first layer over all 100000 nodes: the affine entry clamped below at the zero word's value. -/
def layer1 (mean x : (⟨2, ![100000, 128]⟩ : Shape).Idx → EReal) (wl wr : (⟨2, ![128, 128]⟩ : Shape).Idx → EReal)
    (b : (⟨2, ![1, 128]⟩ : Shape).Idx → EReal) : (⟨2, ![100000, 128]⟩ : Shape).Idx → EReal :=
  fun i => max (affineAt mean x wl wr b (⟨(i 0).val, idx2_lt0 i⟩ : Fin 100000) (⟨(i 1).val, idx2_lt1 i⟩ : Fin 128))
    (Ideal.ofBits .f32 0x00000000#32)

/-- The second layer over all 100000 nodes, 64 output columns, no clamp. -/
def layer2 (mean x : (⟨2, ![100000, 128]⟩ : Shape).Idx → EReal) (wl wr : (⟨2, ![128, 64]⟩ : Shape).Idx → EReal)
    (b : (⟨2, ![1, 64]⟩ : Shape).Idx → EReal) : (⟨2, ![100000, 64]⟩ : Shape).Idx → EReal :=
  fun i => affineAt mean x wl wr b (⟨(i 0).val, idx2_lt0 i⟩ : Fin 100000) (⟨(i 1).val, idx2_lt1 i⟩ : Fin 64)

theorem layer1_ix2 (mean x : (⟨2, ![100000, 128]⟩ : Shape).Idx → EReal) (wl wr : (⟨2, ![128, 128]⟩ : Shape).Idx → EReal)
    (b : (⟨2, ![1, 128]⟩ : Shape).Idx → EReal) (r : Fin 100000) (q : Fin 128) :
    layer1 mean x wl wr b (ix2 r q) = max (affineAt mean x wl wr b r q) (Ideal.ofBits .f32 0x00000000#32) := rfl

theorem layer2_ix2 (mean x : (⟨2, ![100000, 128]⟩ : Shape).Idx → EReal) (wl wr : (⟨2, ![128, 64]⟩ : Shape).Idx → EReal)
    (b : (⟨2, ![1, 64]⟩ : Shape).Idx → EReal) (r : Fin 100000) (q : Fin 64) :
    layer2 mean x wl wr b (ix2 r q) = affineAt mean x wl wr b r q := rfl

end Cert.SageLayer

end
-- ==== Proof.Region0Value.lean ====
/-
  What the first pallas_call leaves in its output array, as one function of the arrays it finds.

  The call walks the 100000 nodes in 50 tiles of 2000 rows. At tile `t` the body reads rows
  `2000·t … 2000·t + 1999` of the aggregated features and of the nodes' own features, the two 128×128 weight
  matrices whole and the bias row, and stores

      max( (mean_tile · W_l + x_tile · W_r) + bias , 0 )

  into rows `2000·t …` of the result (the narrowing of the operands to a shorter float format before the products
  is the identity on extended reals). A product of a tile with a weight matrix into a zero accumulator is, entry
  by entry, the inner product over the 128 features; a row of the tile is a row of the whole array; so the tile the
  point writes back is that tile of the first layer (`Cert.SageLayer.layer1`) of the whole arrays, and since
  the 50 tiles cover every row, the array ends holding the whole layer.

  Everything is stated at whatever contents `V` the region is entered with.
-/
import proofs.«105018_j79852031967993_1_alg».proof.Proof.Gen.KernelIdeal.Frame
import proofs.«105018_j79852031967993_1_alg».proof.Proof.LayerSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.SageLayer
open Idealize.ShloMosaic Idealize.ShloMosaic.TcCoe Idealize.ShloMosaic.ValueIdx Idealize.SL.Sem
open Idealize.ShloMosaic.Pipeline (Dat Cfg Window)

/-! ## A tile times a weight matrix, at an entry -/

/-- The left operand's row coordinate is the output's row … -/
theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … its column coordinate the contracted feature … -/
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- … the right operand's row coordinate that feature … -/
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and its column coordinate the output's column. -/
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of a 2000×128 tile times a 128×128 matrix, accumulated from zero: the inner product of row `p`
    with column `q` over the 128 features. -/
theorem matmul_at {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row spread over the tile's 2000 rows reads, at `(p, q)`, the bias of column `q`. -/
theorem bias_at (x4 : FVec Ideal S1x128 .f32) (p : Fin 2000) (q : Fin 128) :
    broadcastTo S2000x128 x4 broadcasts_S1x128_S2000x128 (ix2 p q) = x4 (ix2 (0 : Fin 1) q) :=
  broadcastTo_apply x4 broadcasts_S1x128_S2000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The body's stored value at an entry -/

/-- Entry `(p, q)` of what the body stores, from the blocks it loads: the affine entry of the tile, clamped below
    at the zero word's value. -/
theorem pay_at (x0 x1 : FVec Ideal S2000x128 .f32) (x2 x3 : FVec Ideal S128x128 .f32) (x4 : FVec Ideal S1x128 .f32)
    (p : Fin 2000) (q : Fin 128) :
    k0_pay1 (F := Ideal) x0 x1 x2 x3 x4 (ix2 p q)
      = max (affineAt x0 x1 x2 x3 x4 p q) (Ideal.ofBits .f32 0x00000000#32) := by
  unfold k0_pay1 affineAt
  rw [maximumf_apply, addf_apply, addf_apply, matmul_at, matmul_at, shapeCast_self, shapeCast_self, bias_at]
  rfl

/-! ## A tile's entry is the whole layer's entry -/

/-- If the loaded blocks are the tile of rows ending at row `r` (row `p` of the two feature blocks is row `r` of
    the feature arrays; the weight blocks and the bias block are the whole matrices), entry `(p, q)` of the
    stored value is entry `(r, q)` of the first layer of the whole arrays. -/
theorem block_entry (mean x : S100000x128.Idx → EReal) (wl wr : S128x128.Idx → EReal) (b : S1x128.Idx → EReal)
    (x0 x1 : FVec Ideal S2000x128 .f32) (x2 x3 : FVec Ideal S128x128 .f32) (x4 : FVec Ideal S1x128 .f32)
    (p : Fin 2000) (q : Fin 128) (r : Fin 100000)
    (h0 : ∀ k : Fin 128, x0 (ix2 p k) = mean (ix2 r k)) (h1 : ∀ k : Fin 128, x1 (ix2 p k) = x (ix2 r k))
    (h2 : x2 = wl) (h3 : x3 = wr) (h4 : x4 = b) :
    k0_pay1 (F := Ideal) x0 x1 x2 x3 x4 (ix2 p q) = layer1 mean x wl wr b (ix2 r q) := by
  subst h2 h3 h4
  rw [pay_at, layer1_ix2, affineAt_rows mean x x0 x1 x2 x3 x4 p r q h0 h1]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 points: the two feature windows and the output window sit at block
    row `t`, block column 0; the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is tile `t` of the first layer of the arrays the region finds. -/
theorem flushed_eq (c : Dev nD) (t : Fin cfg0.N) :
    (dat0 (F := Ideal) V c).flushed 5 t = ((cfg0.win 5).blk t).view.read (Elt Ideal)
      (layer1 (V c main_v26) (V c main_arg0) (V c main_arg2) (V c main_arg3) (V c main_v27)) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  have ht : t.val < 50 := Nat.lt_of_lt_of_eq t.isLt N_0
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg0.win 5).blk t).view.emb (ix2 p q) = ix2 (⟨t.val * 2000 + p.val, hr⟩ : Fin 100000) q :=
    funext fun a => Fin.ext (by
      match a with
      | ⟨0, _⟩ => show win0_5.index t (0 : Fin 2) * 2000 + 1 * p.val = t.val * 2000 + p.val; omega
      | ⟨1, _⟩ => show win0_5.index t (1 : Fin 2) * 128 + 1 * q.val = q.val; omega)
  show k0_pay1 (F := Ideal) (iblk0 V c 0 t) (iblk0 V c 1 t) (iblk0 V c 2 t) (iblk0 V c 3 t) (iblk0 V c 4 t) (ix2 p q)
    = layer1 (V c main_v26) (V c main_arg0) (V c main_arg2) (V c main_arg3) (V c main_v27) (((cfg0.win 5).blk t).view.emb (ix2 p q))
  rw [hemb]
  refine block_entry _ _ _ _ _ _ _ _ _ _ p q _ ?_ ?_ ?_ ?_ ?_
  · intro k
    show V c main_v26 (((cfg0.win 0).blk t).view.emb (ix2 p k)) = V c main_v26 (ix2 (⟨t.val * 2000 + p.val, hr⟩ : Fin 100000) k)
    refine congrArg (V c main_v26) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    show V c main_arg0 (((cfg0.win 1).blk t).view.emb (ix2 p k)) = V c main_arg0 (ix2 (⟨t.val * 2000 + p.val, hr⟩ : Fin 100000) k)
    refine congrArg (V c main_arg0) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg3 (((cfg0.win 3).blk t).view.emb y) = V c main_arg3 y
    refine congrArg (V c main_arg3) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v27 (((cfg0.win 4).blk t).view.emb y) = V c main_v27 y
    refine congrArg (V c main_v27) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-! ## The tiles cover the array -/

/-- An index of the output array is in point `t`'s tile iff each coordinate is in the tile's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Row `r` is in the tile of point `r / 2000`, and every point writes its tile back. -/
theorem cover (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  have hN : (i 0).val / 2000 < cfg0.N := by rw [show cfg0.N = 50 from N_0]; omega
  obtain ⟨_, _, _, _, _, _, _, _, _, _, e50, e51⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e51]; omega

/-- THE OUTPUT ARRAY after the region: the first layer of the arrays the region finds. -/
theorem final (c : Dev nD) :
    (dat0 (F := Ideal) V c).arrAt 5 cfg0.N
      = layer1 (V c main_v26) (V c main_arg0) (V c main_arg2) (V c main_arg3) (V c main_v27) :=
  (dat0 (F := Ideal) V c).arrAt_eq_of_cover 5 _ (fun t _ => flushed_eq V c t) cover

end Cert.KernelIdeal.Region0

end
-- ==== Proof.Region1Value.lean ====
/-
  What the second pallas_call leaves in its output array, as one function of the arrays it finds.

  The second call has the first one's schedule — 50 tiles of 2000 rows over the 100000 nodes — with 64 output
  columns and no clamp: at tile `t` the body reads rows `2000·t …` of the aggregated hidden features and of the
  hidden features themselves, the two 128×64 weight matrices whole and the 64-entry bias row, and stores

      (mean_tile · W_l + h_tile · W_r) + bias

  into rows `2000·t …` of the result. Entry by entry a product with a weight matrix into a zero accumulator is the
  inner product over the 128 hidden features, a row of a tile is a row of the whole array, and the 50 tiles cover
  every row: the array ends holding the second layer (`Cert.SageLayer.layer2`) of the whole arrays.

  Everything is stated at whatever contents `V` the region is entered with.
-/
import proofs.«105018_j79852031967993_1_alg».proof.Proof.Gen.KernelIdeal.Frame
import proofs.«105018_j79852031967993_1_alg».proof.Proof.LayerSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Cert.SageLayer
open Idealize.ShloMosaic Idealize.ShloMosaic.TcCoe Idealize.ShloMosaic.ValueIdx Idealize.SL.Sem
open Idealize.ShloMosaic.Pipeline (Dat Cfg Window)

/-! ## A tile times a 128×64 weight matrix, at an entry -/

/-- The left operand's row coordinate is the output's row … -/
theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … its column coordinate the contracted feature … -/
theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- … the right operand's row coordinate that feature … -/
theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and its column coordinate the output's column. -/
theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry `(p, q)` of a 2000×128 tile times a 128×64 matrix, accumulated from zero: the inner product of row `p`
    with column `q` over the 128 hidden features. -/
theorem matmul_at {φ₁ φ₂ : FTy} (l : FVec Ideal S2000x128 φ₁) (r : FVec Ideal S128x64 φ₂) (p : Fin 2000) (q : Fin 64) :
    matmul dot_S2000x128_S128x64_S2000x64_1_0_0_1_n_n none l r (constant S2000x64 .f32 0x00000000#32) (ix2 p q)
      = ∑ k : Fin 128, l (ix2 p k) * r (ix2 k q) := by
  refine (Ideal.matmul_constant_zero_apply dot_S2000x128_S128x64_S2000x64_1_0_0_1_n_n none l r (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row spread over the tile's 2000 rows reads, at `(p, q)`, the bias of column `q`. -/
theorem bias_at (x4 : FVec Ideal S1x64 .f32) (p : Fin 2000) (q : Fin 64) :
    broadcastTo S2000x64 x4 broadcasts_S1x64_S2000x64 (ix2 p q) = x4 (ix2 (0 : Fin 1) q) :=
  broadcastTo_apply x4 broadcasts_S1x64_S2000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The body's stored value at an entry -/

/-- Entry `(p, q)` of what the body stores, from the blocks it loads: the affine entry of the tile (no clamp in
    this layer). -/
theorem pay_at (x0 x1 : FVec Ideal S2000x128 .f32) (x2 x3 : FVec Ideal S128x64 .f32) (x4 : FVec Ideal S1x64 .f32)
    (p : Fin 2000) (q : Fin 64) :
    k1_pay1 (F := Ideal) x0 x1 x2 x3 x4 (ix2 p q) = affineAt x0 x1 x2 x3 x4 p q := by
  unfold k1_pay1 affineAt
  rw [addf_apply, addf_apply, matmul_at, matmul_at, shapeCast_self, shapeCast_self, shapeCast_self, bias_at]
  rfl

/-! ## A tile's entry is the whole layer's entry -/

/-- If the loaded blocks are the tile of rows ending at row `r` (row `p` of the two feature blocks is row `r` of
    the feature arrays; the weight blocks and the bias block are the whole matrices), entry `(p, q)` of the
    stored value is entry `(r, q)` of the second layer of the whole arrays. -/
theorem block_entry (mean x : S100000x128.Idx → EReal) (wl wr : S128x64.Idx → EReal) (b : S1x64.Idx → EReal)
    (x0 x1 : FVec Ideal S2000x128 .f32) (x2 x3 : FVec Ideal S128x64 .f32) (x4 : FVec Ideal S1x64 .f32)
    (p : Fin 2000) (q : Fin 64) (r : Fin 100000)
    (h0 : ∀ k : Fin 128, x0 (ix2 p k) = mean (ix2 r k)) (h1 : ∀ k : Fin 128, x1 (ix2 p k) = x (ix2 r k))
    (h2 : x2 = wl) (h3 : x3 = wr) (h4 : x4 = b) :
    k1_pay1 (F := Ideal) x0 x1 x2 x3 x4 (ix2 p q) = layer2 mean x wl wr b (ix2 r q) := by
  subst h2 h3 h4
  rw [pay_at, layer2_ix2, affineAt_rows mean x x0 x1 x2 x3 x4 p r q h0 h1]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 points: the two feature windows and the output window sit at block
    row `t`, block column 0; the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is tile `t` of the second layer of the arrays the region finds. -/
theorem flushed_eq (c : Dev nD) (t : Fin cfg1.N) :
    (dat1 (F := Ideal) V c).flushed 5 t = ((cfg1.win 5).blk t).view.read (Elt Ideal)
      (layer2 (V c main_v47) (V c main_v28) (V c main_arg5) (V c main_arg6) (V c main_v48)) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S128x64) hz, View.ld_unit_zero (S := S1x64) hz]
  obtain ⟨e00, e01, e10, e11, e20, e21, e30, e31, e40, e41, e50, e51⟩ := idx_facts t
  have ht : t.val < 50 := Nat.lt_of_lt_of_eq t.isLt N_1
  funext j
  obtain ⟨p, q, rfl⟩ : ∃ (p : Fin 2000) (q : Fin 64), j = ix2 p q := ⟨j 0, j 1, eq_ix2 j⟩
  have hr : t.val * 2000 + p.val < 100000 := by have := p.isLt; omega
  have hemb : ((cfg1.win 5).blk t).view.emb (ix2 p q) = ix2 (⟨t.val * 2000 + p.val, hr⟩ : Fin 100000) q :=
    funext fun a => Fin.ext (by
      match a with
      | ⟨0, _⟩ => show win1_5.index t (0 : Fin 2) * 2000 + 1 * p.val = t.val * 2000 + p.val; omega
      | ⟨1, _⟩ => show win1_5.index t (1 : Fin 2) * 64 + 1 * q.val = q.val; omega)
  show k1_pay1 (F := Ideal) (iblk1 V c 0 t) (iblk1 V c 1 t) (iblk1 V c 2 t) (iblk1 V c 3 t) (iblk1 V c 4 t) (ix2 p q)
    = layer2 (V c main_v47) (V c main_v28) (V c main_arg5) (V c main_arg6) (V c main_v48) (((cfg1.win 5).blk t).view.emb (ix2 p q))
  rw [hemb]
  refine block_entry _ _ _ _ _ _ _ _ _ _ p q _ ?_ ?_ ?_ ?_ ?_
  · intro k
    show V c main_v47 (((cfg1.win 0).blk t).view.emb (ix2 p k)) = V c main_v47 (ix2 (⟨t.val * 2000 + p.val, hr⟩ : Fin 100000) k)
    refine congrArg (V c main_v47) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k
    show V c main_v28 (((cfg1.win 1).blk t).view.emb (ix2 p k)) = V c main_v28 (ix2 (⟨t.val * 2000 + p.val, hr⟩ : Fin 100000) k)
    refine congrArg (V c main_v28) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · funext y
    show V c main_v48 (((cfg1.win 4).blk t).view.emb y) = V c main_v48 y
    refine congrArg (V c main_v48) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega

/-! ## The tiles cover the array -/

/-- An index of the output array is in point `t`'s tile iff each coordinate is in the tile's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v49).slice (win1_5.rect t)).set ↔ _
  rw [View.set_slice_whole, Rect.mem_set_unit]
  exact Iff.rfl

/-- Row `r` is in the tile of point `r / 2000`, and every point writes its tile back. -/
theorem cover (i : S100000x64.Idx) : ∃ t : Fin cfg1.N, (cfg1.win 5).flush t = true ∧ i ∈ ((cfg1.win 5).blk t).view.set := by
  have hi0 : (i 0).val < 100000 := idx2_lt0 i
  have hi1 : (i 1).val < 64 := idx2_lt1 i
  have hN : (i 0).val / 2000 < cfg1.N := by rw [show cfg1.N = 50 from N_1]; omega
  obtain ⟨_, _, _, _, _, _, _, _, _, _, e50, e51⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hN⟩ (1 : Fin 2) * 64 ≤ (i 1).val ∧ (i 1).val < win1_5.index ⟨(i 0).val / 2000, hN⟩ (1 : Fin 2) * 64 + 64
    rw [e51]; omega

/-- THE OUTPUT ARRAY after the region: the second layer of the arrays the region finds. -/
theorem final (c : Dev nD) :
    (dat1 (F := Ideal) V c).arrAt 5 cfg1.N
      = layer2 (V c main_v47) (V c main_v28) (V c main_arg5) (V c main_arg6) (V c main_v48) :=
  (dat1 (F := Ideal) V c).arrAt_eq_of_cover 5 _ (fun t _ => flushed_eq V c t) cover

end Cert.KernelIdeal.Region1

end
-- ==== Proof.HostChain.lean ====
/-
  The host's operations around the two pallas_calls, read as functions of what they are run from.

  Before each call the program aggregates the features over the graph: from the edge list it takes the source and
  the destination node of every edge (`srcOf`, `dstOf`), counts each node's incoming edges by adding a one per
  edge at its destination (`degOf`), gathers the source nodes' feature rows (a negative source index wrapped by
  the node count), adds each gathered row into its destination's row, divides every row by its node's count (or
  by one where the count is below one) and keeps the quotient where the count is positive, zero elsewhere
  (`meanOf`). The first layer aggregates the input features; the second aggregates the first layer's output with
  the SAME source, destination and count arrays, which the program computes once. Besides that the host only
  reshapes each bias vector to a one-row matrix.

  Each stretch is read at a VARIABLE valuation, so that nothing about the launch memory or an earlier region's
  output enters the reading.
-/
import proofs.«105018_j79852031967993_1_alg».proof.Proof.Gen.KernelIdeal.Frame
import Idealize.ShloMosaic.Lib.StableHlo.Run

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo

variable {F : FTy → Type} [FloatOps F]

/-- The source node of every edge: row 0 of the edge list. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The destination node of every edge: row 1 of the edge list. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- Every node's number of incoming edges: a one added at each edge's destination, from zero. -/
def degOf (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The mean of the incoming neighbours' feature rows, zero for a node with none: gather the sources' rows, add
    them at the destinations, divide by the count (at least one), keep where the count is positive. -/
def meanOf (feat : (⟨S100000x128, .f32⟩ : BufTy).Contents (Elt F)) (src dst : (⟨S1600000, .i32⟩ : BufTy).Contents (Elt F))
    (deg : (⟨S100000, .f32⟩ : BufTy).Contents (Elt F)) : (⟨S100000x128, .f32⟩ : BufTy).Contents (Elt F) :=
  select
    (broadcastInDim S100000x128 ![0, 1] bcast_S100000x1_S100000x128_0_1
      (cmpf (F := F) .ogt (broadcastInDim S100000x1 ![0] bcast_S100000_S100000x1_0 deg)
        (broadcastInDim S100000x1 ![] bcast_S_S100000x1 (constant S_ .f32 0x00000000#32))))
    (Host.divf
      (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 dst)
        (Host.gather gather_S100000x128_S1600000x1_S1600000x128_1_0_n_n_0_1_1128 feat
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src))))
      (broadcastInDim S100000x128 ![0, 1] bcast_S100000x1_S100000x128_0_1
        (broadcastInDim S100000x1 ![0] bcast_S100000_S100000x1_0
          (maximumf deg (broadcastInDim S100000 ![] bcast_S_S100000 (constant S_ .f32 0x3F800000#32))))))
    (broadcastInDim S100000x128 ![] bcast_S_S100000x128 (id (constant S_ .f32 0x00000000#32)))

/-- The aggregation of a feature array over the graph an edge list gives. -/
def agg (feat : (⟨S100000x128, .f32⟩ : BufTy).Contents (Elt F)) (e : (⟨S2x1600000, .i32⟩ : BufTy).Contents (Elt F)) :
    (⟨S100000x128, .f32⟩ : BufTy).Contents (Elt F) :=
  meanOf feat (srcOf e) (dstOf e) (degOf (dstOf e))

/-! ## The stretch before the first call, from any contents `X` -/

section Before
variable (X : Valuation τ sig (Elt F))

/-- The first call's aggregated features are the aggregation of the input features over the edge list. -/
theorem before_v26 : after (hostOps0_2 (F := F)) (after hostOps0_1 (after hostOps0 X)) (Proc.devRef .tc main_v26)
    = agg (X (Proc.devRef .tc main_arg0)) (X (Proc.devRef .tc main_arg1)) := by
  after_results_simp <;> rfl

/-- The stretch writes none of the arguments … -/
theorem before_arg0 : after (hostOps0_2 (F := F)) (after hostOps0_1 (after hostOps0 X)) (Proc.devRef .tc main_arg0)
    = X (Proc.devRef .tc main_arg0) := by
  after_results_simp <;> rfl
theorem before_arg1 : after (hostOps0_2 (F := F)) (after hostOps0_1 (after hostOps0 X)) (Proc.devRef .tc main_arg1)
    = X (Proc.devRef .tc main_arg1) := by
  after_results_simp <;> rfl
theorem before_arg2 : after (hostOps0_2 (F := F)) (after hostOps0_1 (after hostOps0 X)) (Proc.devRef .tc main_arg2)
    = X (Proc.devRef .tc main_arg2) := by
  after_results_simp <;> rfl
theorem before_arg3 : after (hostOps0_2 (F := F)) (after hostOps0_1 (after hostOps0 X)) (Proc.devRef .tc main_arg3)
    = X (Proc.devRef .tc main_arg3) := by
  after_results_simp <;> rfl
theorem before_arg5 : after (hostOps0_2 (F := F)) (after hostOps0_1 (after hostOps0 X)) (Proc.devRef .tc main_arg5)
    = X (Proc.devRef .tc main_arg5) := by
  after_results_simp <;> rfl
theorem before_arg6 : after (hostOps0_2 (F := F)) (after hostOps0_1 (after hostOps0 X)) (Proc.devRef .tc main_arg6)
    = X (Proc.devRef .tc main_arg6) := by
  after_results_simp <;> rfl
theorem before_arg7 : after (hostOps0_2 (F := F)) (after hostOps0_1 (after hostOps0 X)) (Proc.devRef .tc main_arg7)
    = X (Proc.devRef .tc main_arg7) := by
  after_results_simp <;> rfl
/-- … reshapes the first bias to a one-row matrix … -/
theorem before_v27 : after (hostOps0_2 (F := F)) (after hostOps0_1 (after hostOps0 X)) (Proc.devRef .tc main_v27)
    = shapeCast S1x128 (X (Proc.devRef .tc main_arg4)) shapeCasts_S128_S1x128 := by
  after_results_simp <;> rfl
/-- … and leaves the sources, the destinations and the counts in three buffers the second aggregation reads again. -/
theorem before_v1 : after (hostOps0_2 (F := F)) (after hostOps0_1 (after hostOps0 X)) (Proc.devRef .tc main_v1)
    = srcOf (X (Proc.devRef .tc main_arg1)) := by
  after_results_simp <;> rfl
theorem before_v3 : after (hostOps0_2 (F := F)) (after hostOps0_1 (after hostOps0 X)) (Proc.devRef .tc main_v3)
    = dstOf (X (Proc.devRef .tc main_arg1)) := by
  after_results_simp <;> rfl
theorem before_v7 : after (hostOps0_2 (F := F)) (after hostOps0_1 (after hostOps0 X)) (Proc.devRef .tc main_v7)
    = degOf (dstOf (X (Proc.devRef .tc main_arg1))) := by
  after_results_simp <;> rfl

end Before

/-! ## The stretch between the two calls, from any contents `X` -/

section Between
variable (X : Valuation τ sig (Elt F))

/-- The second call's aggregated features: the mean of the first call's output over the same sources, destinations
    and counts. -/
theorem between_v47 : after (hostOps1_2 (F := F)) (after hostOps1_1 (after hostOps1 X)) (Proc.devRef .tc main_v47)
    = meanOf (X (Proc.devRef .tc main_v28)) (X (Proc.devRef .tc main_v1)) (X (Proc.devRef .tc main_v3)) (X (Proc.devRef .tc main_v7)) := by
  after_results_simp <;> rfl
/-- The stretch leaves the first call's output and the second layer's weights as they were … -/
theorem between_v28 : after (hostOps1_2 (F := F)) (after hostOps1_1 (after hostOps1 X)) (Proc.devRef .tc main_v28)
    = X (Proc.devRef .tc main_v28) := by
  after_results_simp <;> rfl
theorem between_arg5 : after (hostOps1_2 (F := F)) (after hostOps1_1 (after hostOps1 X)) (Proc.devRef .tc main_arg5)
    = X (Proc.devRef .tc main_arg5) := by
  after_results_simp <;> rfl
theorem between_arg6 : after (hostOps1_2 (F := F)) (after hostOps1_1 (after hostOps1 X)) (Proc.devRef .tc main_arg6)
    = X (Proc.devRef .tc main_arg6) := by
  after_results_simp <;> rfl
/-- … and reshapes the second bias to a one-row matrix. -/
theorem between_v48 : after (hostOps1_2 (F := F)) (after hostOps1_1 (after hostOps1 X)) (Proc.devRef .tc main_v48)
    = shapeCast S1x64 (X (Proc.devRef .tc main_arg7)) shapeCasts_S64_S1x64 := by
  after_results_simp <;> rfl

end Between

end Cert.KernelIdeal.HostVal

end
-- ==== Proof.KernelValue.lean ====
/-
  The kernel program's result as the two-layer network of its arguments.

  `net` is the network as one function of the eight arguments: the hidden features are the first layer of the
  aggregated input features and the input features (`hiddenOf`), the result the second layer of the aggregated
  hidden features and the hidden features, each bias vector read as a one-row matrix. The program's run computes
  exactly this: the stretch before the first call leaves the aggregated input features and the reshaped bias, the
  first call's output array ends holding `layer1` of what it finds, the stretch between the calls aggregates that
  array over the same graph, and the second call's output array, which is the program's result, ends holding
  `layer2` of what it finds.
-/
import proofs.«105018_j79852031967993_1_alg».proof.Proof.KernelRun
import proofs.«105018_j79852031967993_1_alg».proof.Proof.Region0Value
import proofs.«105018_j79852031967993_1_alg».proof.Proof.Region1Value
import proofs.«105018_j79852031967993_1_alg».proof.Proof.HostChain

set_option maxRecDepth 16384

noncomputable section

namespace Cert.KernelIdeal.KernelValue

open Cert.KernelIdeal Cert.KernelIdeal.Gen Cert.KernelIdeal.HostVal Cert.SageLayer
open Idealize.ShloMosaic Idealize.ShloMosaic.TcCoe Idealize.SL.Sem Idealize.ShloMosaic.StableHlo

/-- The hidden features: the first layer of the aggregated input features and the input features. -/
def hiddenOf (x : (⟨S100000x128, .f32⟩ : BufTy).Contents (Elt Ideal)) (e : (⟨S2x1600000, .i32⟩ : BufTy).Contents (Elt Ideal))
    (w1l w1r : (⟨S128x128, .f32⟩ : BufTy).Contents (Elt Ideal)) (b1 : (⟨S128, .f32⟩ : BufTy).Contents (Elt Ideal)) :
    (⟨S100000x128, .f32⟩ : BufTy).Contents (Elt Ideal) :=
  layer1 (agg x e) x w1l w1r (shapeCast S1x128 b1 shapeCasts_S128_S1x128)

/-- The network: the second layer of the aggregated hidden features and the hidden features. -/
def net (x : (⟨S100000x128, .f32⟩ : BufTy).Contents (Elt Ideal)) (e : (⟨S2x1600000, .i32⟩ : BufTy).Contents (Elt Ideal))
    (w1l w1r : (⟨S128x128, .f32⟩ : BufTy).Contents (Elt Ideal)) (b1 : (⟨S128, .f32⟩ : BufTy).Contents (Elt Ideal))
    (w2l w2r : (⟨S128x64, .f32⟩ : BufTy).Contents (Elt Ideal)) (b2 : (⟨S64, .f32⟩ : BufTy).Contents (Elt Ideal)) :
    (⟨S100000x64, .f32⟩ : BufTy).Contents (Elt Ideal) :=
  layer2 (agg (hiddenOf x e w1l w1r b1) e) (hiddenOf x e w1l w1r b1) w2l w2r (shapeCast S1x64 b2 shapeCasts_S64_S1x64)

variable (m : (ℓ : Loc nD τ sig) → Buf (Elt Ideal) ℓ) (ρ : Dev nD → PrngReg)

/-- The hidden features of the launch memory's arguments on core `c`. -/
abbrev hidden (c : Dev nD) : (⟨S100000x128, .f32⟩ : BufTy).Contents (Elt Ideal) :=
  hiddenOf (m ((c : Thread nD τ).loc main_arg0)) (m ((c : Thread nD τ).loc main_arg1)) (m ((c : Thread nD τ).loc main_arg2))
    (m ((c : Thread nD τ).loc main_arg3)) (m ((c : Thread nD τ).loc main_arg4))

/-! ## After the first call -/

/-- The first call's output array, at the boundary after the call, holds the hidden features. -/
theorem first_out (c : Dev nD) : W4 (F := Ideal) m ρ c (Proc.devRef .tc main_v28) = hidden m c := by
  refine (W4_arr m ρ c 5).trans ((Region0.final (V3 m ρ) c).trans ?_)
  show layer1 (V3 m ρ c main_v26) (V3 m ρ c main_arg0) (V3 m ρ c main_arg2) (V3 m ρ c main_arg3) (V3 m ρ c main_v27) = _
  rw [show V3 m ρ c main_v26 = agg (m ((c : Thread nD τ).loc main_arg0)) (m ((c : Thread nD τ).loc main_arg1)) from before_v26 (W0 m ρ c),
    show V3 m ρ c main_arg0 = m ((c : Thread nD τ).loc main_arg0) from before_arg0 (W0 m ρ c),
    show V3 m ρ c main_arg2 = m ((c : Thread nD τ).loc main_arg2) from before_arg2 (W0 m ρ c),
    show V3 m ρ c main_arg3 = m ((c : Thread nD τ).loc main_arg3) from before_arg3 (W0 m ρ c),
    show V3 m ρ c main_v27 = shapeCast S1x128 (m ((c : Thread nD τ).loc main_arg4)) shapeCasts_S128_S1x128 from before_v27 (W0 m ρ c)]
  rfl

/-- The call writes none of the sources, destinations and counts the first stretch computed … -/
theorem kept_src (c : Dev nD) : W4 (F := Ideal) m ρ c (Proc.devRef .tc main_v1) = srcOf (m ((c : Thread nD τ).loc main_arg1)) :=
  (W4_of_ne m ρ c main_v1 (by decide)).trans (before_v1 (W0 m ρ c))
theorem kept_dst (c : Dev nD) : W4 (F := Ideal) m ρ c (Proc.devRef .tc main_v3) = dstOf (m ((c : Thread nD τ).loc main_arg1)) :=
  (W4_of_ne m ρ c main_v3 (by decide)).trans (before_v3 (W0 m ρ c))
theorem kept_deg (c : Dev nD) : W4 (F := Ideal) m ρ c (Proc.devRef .tc main_v7) = degOf (dstOf (m ((c : Thread nD τ).loc main_arg1))) :=
  (W4_of_ne m ρ c main_v7 (by decide)).trans (before_v7 (W0 m ρ c))
/-- … nor the second layer's weights and bias. -/
theorem kept_arg5 (c : Dev nD) : W4 (F := Ideal) m ρ c (Proc.devRef .tc main_arg5) = m ((c : Thread nD τ).loc main_arg5) :=
  (W4_of_ne m ρ c main_arg5 (by decide)).trans (before_arg5 (W0 m ρ c))
theorem kept_arg6 (c : Dev nD) : W4 (F := Ideal) m ρ c (Proc.devRef .tc main_arg6) = m ((c : Thread nD τ).loc main_arg6) :=
  (W4_of_ne m ρ c main_arg6 (by decide)).trans (before_arg6 (W0 m ρ c))
theorem kept_arg7 (c : Dev nD) : W4 (F := Ideal) m ρ c (Proc.devRef .tc main_arg7) = m ((c : Thread nD τ).loc main_arg7) :=
  (W4_of_ne m ρ c main_arg7 (by decide)).trans (before_arg7 (W0 m ρ c))

/-! ## What the second call finds, and leaves -/

/-- The second call's aggregated features are the aggregation of the hidden features over the edge list. -/
theorem second_mean (c : Dev nD) : V7 (F := Ideal) m ρ c main_v47 = agg (hidden m c) (m ((c : Thread nD τ).loc main_arg1)) := by
  refine (between_v47 (W4 m ρ c)).trans ?_
  rw [first_out m ρ c, kept_src m ρ c, kept_dst m ρ c, kept_deg m ρ c]
  rfl

/-- THE RESULT: the program's result buffer, at the last boundary, holds the network of the arguments. -/
theorem result (c : Dev nD) : W8 (F := Ideal) m ρ c (Proc.devRef .tc main_v49)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W8_arr m ρ c 5).trans ((Region1.final (V7 m ρ) c).trans ?_)
  show layer2 (V7 m ρ c main_v47) (V7 m ρ c main_v28) (V7 m ρ c main_arg5) (V7 m ρ c main_arg6) (V7 m ρ c main_v48) = _
  rw [second_mean m ρ c,
    show V7 m ρ c main_v28 = hidden m c from (between_v28 (W4 m ρ c)).trans (first_out m ρ c),
    show V7 m ρ c main_arg5 = m ((c : Thread nD τ).loc main_arg5) from (between_arg5 (W4 m ρ c)).trans (kept_arg5 m ρ c),
    show V7 m ρ c main_arg6 = m ((c : Thread nD τ).loc main_arg6) from (between_arg6 (W4 m ρ c)).trans (kept_arg6 m ρ c),
    show V7 m ρ c main_v48 = shapeCast S1x64 (m ((c : Thread nD τ).loc main_arg7)) shapeCasts_S64_S1x64 from
      (between_v48 (W4 m ρ c)).trans (congrArg (fun z => shapeCast S1x64 z shapeCasts_S64_S1x64) (kept_arg7 m ρ c))]
  rfl

/-- The program's run at the ideal instance, its result named: the network of the arguments, the arguments kept. -/
theorem run : θ_run defs (onTc (τ := τ) (main (F := Ideal))) ⟨m, fun _ => 0, ρ⟩ (fun r => ∀ c : Dev nD,
      r.2.mem ((c.tc : Thread nD τ).loc main_v49)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩)
    (Cert.KernelIdeal.NamedRun.run_named (F := Ideal) m ρ)

end Cert.KernelIdeal.KernelValue

end
-- ==== Proof.RefValue.lean ====
/-
  The reference's result as the two layers of the specification.

  The reference computes, per layer, `mean · W_l + b + x · W_r` with whole-array operations: two matrix products,
  the bias vector spread over the rows, two additions, and for the first layer a maximum with zero. Read at an
  entry `(r, q)` a matrix product is the inner product of row `r` with column `q` over the 128 features, the
  spread bias is the bias of column `q`, and the sum is the layer's affine entry with the bias in the middle
  (`Cert.SageLayer.affineAt_bias_between`). So the first layer's output is `layer1` and the program's result
  `layer2` of the stages they are computed from.

  The second layer aggregates the first layer's output over the graph with the same operations, in the same order,
  as the first aggregates the input features: as a function of the features and the edge list it is the same
  function (`agg_again`), stated for any float instance since nothing in it is arithmetic on reals.
-/
import proofs.«105018_j79852031967993_1_alg».proof.Proof.RefRead
import proofs.«105018_j79852031967993_1_alg».proof.Proof.LayerSpec

set_option maxRecDepth 16384

noncomputable section

open scoped BigOperators

namespace Cert.ReferenceIdeal.RefValue

open Cert.ReferenceIdeal Cert.ReferenceIdeal.ReadP Cert.SageLayer
open Idealize.ShloMosaic Idealize.ShloMosaic.TcCoe Idealize.ShloMosaic.ValueIdx

/-! ## The operands' indices at an entry, by coordinates -/

theorem lidx27 (r : Fin 100000) (q k : Fin 128) : lidx_main_v27 (ix2 r q) k = ix2 r k :=
  funext fun a => Fin.ext (by match a with | ⟨0, _⟩ => rfl | ⟨1, _⟩ => rfl)
theorem ridx27 (r : Fin 100000) (q k : Fin 128) : ridx_main_v27 (ix2 r q) k = ix2 k q :=
  funext fun a => Fin.ext (by match a with | ⟨0, _⟩ => rfl | ⟨1, _⟩ => rfl)
theorem lidx31 (r : Fin 100000) (q k : Fin 128) : lidx_main_v31 (ix2 r q) k = ix2 r k :=
  funext fun a => Fin.ext (by match a with | ⟨0, _⟩ => rfl | ⟨1, _⟩ => rfl)
theorem ridx31 (r : Fin 100000) (q k : Fin 128) : ridx_main_v31 (ix2 r q) k = ix2 k q :=
  funext fun a => Fin.ext (by match a with | ⟨0, _⟩ => rfl | ⟨1, _⟩ => rfl)
theorem bidx29 (r : Fin 100000) (q : Fin 128) : idx_main_v29 (ix2 r q) = ix2 (0 : Fin 1) q :=
  funext fun a => Fin.ext (by match a with | ⟨0, _⟩ => rfl | ⟨1, _⟩ => rfl)
theorem lidx57 (r : Fin 100000) (q : Fin 64) (k : Fin 128) : lidx_main_v57 (ix2 r q) k = ix2 r k :=
  funext fun a => Fin.ext (by match a with | ⟨0, _⟩ => rfl | ⟨1, _⟩ => rfl)
theorem ridx57 (r : Fin 100000) (q : Fin 64) (k : Fin 128) : ridx_main_v57 (ix2 r q) k = ix2 k q :=
  funext fun a => Fin.ext (by match a with | ⟨0, _⟩ => rfl | ⟨1, _⟩ => rfl)
theorem lidx61 (r : Fin 100000) (q : Fin 64) (k : Fin 128) : lidx_main_v61 (ix2 r q) k = ix2 r k :=
  funext fun a => Fin.ext (by match a with | ⟨0, _⟩ => rfl | ⟨1, _⟩ => rfl)
theorem ridx61 (r : Fin 100000) (q : Fin 64) (k : Fin 128) : ridx_main_v61 (ix2 r q) k = ix2 k q :=
  funext fun a => Fin.ext (by match a with | ⟨0, _⟩ => rfl | ⟨1, _⟩ => rfl)
theorem bidx59 (r : Fin 100000) (q : Fin 64) : idx_main_v59 (ix2 r q) = ix2 (0 : Fin 1) q :=
  funext fun a => Fin.ext (by match a with | ⟨0, _⟩ => rfl | ⟨1, _⟩ => rfl)

/-! ## The two layers -/

/-- The first layer's output (after the rectifier) is `layer1` of the aggregated input features, the input
    features, the first weights and the bias row. -/
theorem hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v33 (F := Ideal) x0 x1 x2 x3 x4
      = layer1 (val_main_v26 (F := Ideal) x0 x1) x0 x2 x3 (val_main_v28 (F := Ideal) x4) := by
  funext i
  obtain ⟨r, q, rfl⟩ : ∃ (r : Fin 100000) (q : Fin 128), i = ix2 r q := ⟨i 0, i 1, eq_ix2 i⟩
  rw [layer1_ix2, ← affineAt_bias_between, val_main_v33_apply, val_main_v32_apply, val_main_v30_apply, val_main_v27_apply,
    val_main_v29_apply, val_main_v31_apply, val_main_call1_v0_apply, val_main_call1_cst_apply]
  simp only [lidx27, ridx27, lidx31, ridx31, bidx29]
  rfl

/-- The program's result is `layer2` of the aggregated hidden features, the hidden features, the second weights
    and the bias row. -/
theorem out_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v62 (F := Ideal) x0 x1 x2 x3 x4 x5 x6 x7
      = layer2 (val_main_v56 (F := Ideal) x0 x1 x2 x3 x4) (val_main_v33 (F := Ideal) x0 x1 x2 x3 x4) x5 x6 (val_main_v58 (F := Ideal) x7) := by
  funext i
  obtain ⟨r, q, rfl⟩ : ∃ (r : Fin 100000) (q : Fin 64), i = ix2 r q := ⟨i 0, i 1, eq_ix2 i⟩
  rw [layer2_ix2, ← affineAt_bias_between, val_main_v62_apply, val_main_v60_apply, val_main_v57_apply,
    val_main_v59_apply, val_main_v61_apply]
  simp only [lidx57, ridx57, lidx61, ridx61, bidx59]
  rfl

/-! ## The second aggregation is the first, of the hidden features -/

/-- The aggregated hidden features are the aggregation (the first layer's, as a function of features and edge list)
    of the hidden features. -/
theorem agg_again {F : FTy → Type} [FloatOps F] (x0 : (⟨S100000x128, .f32⟩ : BufTy).Contents (Elt F)) (x1 : (⟨S2x1600000, .i32⟩ : BufTy).Contents (Elt F))
    (x2 x3 : (⟨S128x128, .f32⟩ : BufTy).Contents (Elt F)) (x4 : (⟨S128, .f32⟩ : BufTy).Contents (Elt F)) :
    val_main_v56 (F := F) x0 x1 x2 x3 x4 = val_main_v26 (F := F) (val_main_v33 (F := F) x0 x1 x2 x3 x4) x1 := rfl

end Cert.ReferenceIdeal.RefValue

end
-- ==== Proof.Bridge.lean ====
/-
  The reference's result is the network the kernel program computes.

  Three small identifications join the two sides. The aggregation over the graph is, in both programs, the same
  operations in the same order on the same edge list, so as functions of a feature array and an edge list the two
  are equal with nothing to compute (`agg_eq`). The kernel program reshapes a bias vector `[n]` to a one-row matrix
  `[1, n]` where the reference spreads it there: both read entry `(0, q)` as the vector's entry `q` (`bias1_eq`,
  `bias2_eq`). With these, the reference's result read as the two layers of the specification
  (`RefValue.out_eq`, `hidden_eq`, `agg_again`) is the kernel program's network term for term.
-/
import proofs.«105018_j79852031967993_1_alg».proof.Proof.KernelValue
import proofs.«105018_j79852031967993_1_alg».proof.Proof.RefValue

set_option maxRecDepth 16384

noncomputable section

namespace Cert.Bridge

open Idealize.ShloMosaic Idealize.ShloMosaic.TcCoe Idealize.ShloMosaic.ValueIdx Cert.SageLayer

/-- The two programs' aggregations over the graph are one function of the features and the edge list: the same
    operations in the same order (for any float instance: nothing in it is arithmetic on reals). -/
theorem agg_eq {F : FTy → Type} [FloatOps F] (feat : (⟨Cert.ReferenceIdeal.S100000x128, .f32⟩ : BufTy).Contents (Elt F))
    (e : (⟨Cert.ReferenceIdeal.S2x1600000, .i32⟩ : BufTy).Contents (Elt F)) :
    Cert.KernelIdeal.HostVal.agg (F := F) feat e = Cert.ReferenceIdeal.ReadP.val_main_v26 (F := F) feat e := rfl

/-- A 128-vector reshaped to one row is the vector spread to one row: entry `(0, q)` is entry `q`. -/
theorem bias1_eq (b : (⟨Cert.ReferenceIdeal.S128, .f32⟩ : BufTy).Contents (Elt Ideal)) :
    shapeCast Cert.KernelIdeal.S1x128 b Cert.KernelIdeal.Facts₀.shapeCasts_S128_S1x128 = Cert.ReferenceIdeal.ReadP.val_main_v28 (F := Ideal) b := by
  funext j
  rw [Cert.ReferenceIdeal.ReadP.val_main_v28_apply]
  refine (shapeCast_addUnit_apply ![128] b Cert.KernelIdeal.Facts₀.shapeCasts_S128_S1x128 j).trans (congrArg b (funext fun a => ?_))
  match a with
  | ⟨0, _⟩ => rfl

/-- The same for the second layer's 64-vector. -/
theorem bias2_eq (b : (⟨Cert.ReferenceIdeal.S64, .f32⟩ : BufTy).Contents (Elt Ideal)) :
    shapeCast Cert.KernelIdeal.S1x64 b Cert.KernelIdeal.Facts₀.shapeCasts_S64_S1x64 = Cert.ReferenceIdeal.ReadP.val_main_v58 (F := Ideal) b := by
  funext j
  rw [Cert.ReferenceIdeal.ReadP.val_main_v58_apply]
  refine (shapeCast_addUnit_apply ![64] b Cert.KernelIdeal.Facts₀.shapeCasts_S64_S1x64 j).trans (congrArg b (funext fun a => ?_))
  match a with
  | ⟨0, _⟩ => rfl

/-- THE BRIDGE: the reference's result stage is the kernel program's network of the same eight arguments. -/
theorem ref_eq_net (x0 : (⟨Cert.ReferenceIdeal.S100000x128, .f32⟩ : BufTy).Contents (Elt Ideal)) (x1 : (⟨Cert.ReferenceIdeal.S2x1600000, .i32⟩ : BufTy).Contents (Elt Ideal))
    (x2 x3 : (⟨Cert.ReferenceIdeal.S128x128, .f32⟩ : BufTy).Contents (Elt Ideal)) (x4 : (⟨Cert.ReferenceIdeal.S128, .f32⟩ : BufTy).Contents (Elt Ideal))
    (x5 x6 : (⟨Cert.ReferenceIdeal.S128x64, .f32⟩ : BufTy).Contents (Elt Ideal)) (x7 : (⟨Cert.ReferenceIdeal.S64, .f32⟩ : BufTy).Contents (Elt Ideal)) :
    Cert.ReferenceIdeal.ReadP.val_main_v62 (F := Ideal) x0 x1 x2 x3 x4 x5 x6 x7
      = Cert.KernelIdeal.KernelValue.net x0 x1 x2 x3 x4 x5 x6 x7 := by
  unfold Cert.KernelIdeal.KernelValue.net Cert.KernelIdeal.KernelValue.hiddenOf
  rw [Cert.ReferenceIdeal.RefValue.out_eq, Cert.ReferenceIdeal.RefValue.agg_again, Cert.ReferenceIdeal.RefValue.hidden_eq,
    agg_eq, agg_eq, bias1_eq, bias2_eq]

end Cert.Bridge

end
-- ==== Proof.lean ====
/-
  The certificate of a two-layer graph network (mean aggregation over 1.6 million edges, then a dense layer; twice)
  whose dense layers run as tiled TensorCore kernels, against its whole-array reference.

  Both programs aggregate the neighbours' features with the same host operations. Each dense layer is
  `mean · W_l + x · W_r + b`; the kernel computes it 2000 rows at a time with the bias added last, the reference on
  whole arrays with the bias added between the two products. Over the extended reals the two differ only by the
  order of two additions, so the claim holds at every input, finite or not: the precondition is never opened.

  * the three frames: the two kernel programs' are generated; the reference's is its run with the result dropped;
  * `preserves`: the idealizing pass rewrote nothing, the claim is `True`;
  * `algebraic`: the kernel program's run ends with its result at the network of its arguments
    (Proof/KernelValue.lean over Proof/Region0Value.lean, Region1Value.lean, HostChain.lean), the reference's at a
    term that is the same network (Proof/RefValue.lean, Proof/Bridge.lean), and the arguments agree.
-/
import proofs.«105018_j79852031967993_1_alg».proof.Defs
import proofs.«105018_j79852031967993_1_alg».proof.Proof.Gen.Kernel
import proofs.«105018_j79852031967993_1_alg».proof.Proof.Gen.Kernel.Skeleton
import proofs.«105018_j79852031967993_1_alg».proof.Proof.Gen.Kernel.Launch
import proofs.«105018_j79852031967993_1_alg».proof.Proof.Gen.Kernel.Points
import proofs.«105018_j79852031967993_1_alg».proof.Proof.Gen.Kernel.Frame
import proofs.«105018_j79852031967993_1_alg».proof.Proof.Gen.KernelIdeal
import proofs.«105018_j79852031967993_1_alg».proof.Proof.Gen.KernelIdeal.Skeleton
import proofs.«105018_j79852031967993_1_alg».proof.Proof.Gen.KernelIdeal.Launch
import proofs.«105018_j79852031967993_1_alg».proof.Proof.Gen.KernelIdeal.Points
import proofs.«105018_j79852031967993_1_alg».proof.Proof.Gen.KernelIdeal.Frame
import proofs.«105018_j79852031967993_1_alg».proof.Proof.Gen.ReferenceIdeal
import proofs.«105018_j79852031967993_1_alg».proof.Proof.Gen.Pre_finite_inputs
import proofs.«105018_j79852031967993_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- Both runs end with their result at the network of the arguments, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v62_eq, Cert.Bridge.ref_eq_net, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
